-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x1024 : Shape := ⟨2, ![1024, 1024]⟩
abbrev S512x64 : Shape := ⟨2, ![512, 64]⟩
abbrev S64 : Shape := ⟨1, ![64]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1024x512 .f32) (main_arg1 : FVec F S1024x1024 .f32) (main_arg2 : FVec F S512x64 .f32) (main_arg3 : FVec F S64 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1024x512 : Shape := ⟨2, ![1024, 512]⟩
abbrev S1024x1024 : Shape := ⟨2, ![1024, 1024]⟩
abbrev S512x64 : Shape := ⟨2, ![512, 64]⟩
abbrev S64 : Shape := ⟨1, ![64]⟩
abbrev S1x64 : Shape := ⟨2, ![1, 64]⟩
abbrev S1024x64 : Shape := ⟨2, ![1024, 64]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x64, .f32⟩
  | .hbm, ⟨3, _⟩ => ⟨S64, .f32⟩
  | .hbm, ⟨4, _⟩ => ⟨S1x64, .f32⟩
  | .hbm, ⟨5, _⟩ => ⟨S1024x64, .f32⟩
  | .local _ .vmem, ⟨0, _⟩ => ⟨S1024x512, .f32⟩
  | .local _ .vmem, ⟨1, _⟩ => ⟨S512x1024, .f32⟩
  | .local _ .vmem, ⟨2, _⟩ => ⟨S512x1024, .f32⟩
  | .local _ .vmem, ⟨3, _⟩ => ⟨S512x64, .f32⟩
  | .local _ .vmem, ⟨4, _⟩ => ⟨S1x64, .f32⟩
  | .local _ .vmem, ⟨5, _⟩ => ⟨S512x64, .f32⟩
  | .local _ .vmem, ⟨6, _⟩ => ⟨S512x64, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S512x1024_S512x1024_0_0 : ∀ a, (![0, 0] : Fin 2 → Nat) a + S512x1024.size a ≤ S512x1024.size a
  h_S512x1024 : 0 < S512x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  dot_S1024x512_S512x64_S1024x64_1_0_0_1_n_n_wf : DotDims.WF S1024x512 S512x64 S1024x64 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S1024x64.size a
  hwx0_4 : ∀ i : grid0.Coords, EltTy.bits .f32 = 32 ∨ (Rect.block (s := S1024x64) S512x64.size (cc0_transform_4 i) (hinb0_4 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x1024 : Shape := ⟨2, ![1024, 1024]⟩
abbrev S512x64 : Shape := ⟨2, ![512, 64]⟩
abbrev S64 : Shape := ⟨1, ![64]⟩
abbrev S1024x64 : Shape := ⟨2, ![1024, 64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x64, .f32⟩
  | .hbm, ⟨3, _⟩ => ⟨S64, .f32⟩
  | .hbm, ⟨4, _⟩ => ⟨S1024x64, .f32⟩
  | .hbm, ⟨5, _⟩ => ⟨S1024x64, .f32⟩
  | .hbm, ⟨6, _⟩ => ⟨S1x64, .f32⟩
  | .hbm, ⟨7, _⟩ => ⟨S1024x64, .f32⟩
  | .hbm, ⟨8, _⟩ => ⟨S1024x64, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  dot_S1024x512_S512x64_S1024x64_1_0_0_1_n_n_wf : DotDims.WF S1024x512 S512x64 S1024x64 [1] [0] [0] [1] [] []
  dot_S1024x1024_S1024x64_S1024x64_1_0_0_1_n_n_wf : DotDims.WF S1024x1024 S1024x64 S1024x64 [1] [0] [0] [1] [] []

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

class Facts : Prop extends Facts₀ where

variable [Facts]
-- ==== Proof.BandProduct.lean ====
/-
  What the kernel body computes on ONE band of 512 adjacency rows, read at an index.

  The body holds all node features `x` (1024 × 512), all weights `w` (512 × 64), one band `ab` of 512 rows of the
  adjacency (512 × 1024) and the bias as a 1 × 64 row `b`. It projects every node (a 1024 × 64 matrix product into
  a zero accumulator), multiplies the band by the projections (a second product into a zero accumulator) and adds
  the bias row, repeated down the band's 512 rows. The narrowings of float format in between are the identity on
  extended reals, and a matrix product into zero is the plain finite sum of products. So entry (r, c) of the band's
  result is
      (Σ_k ab[r, k] · Σ_j x[k, j] · w[j, c]) + b[0, c].
-/
import proofs.«124367_g80427557585491_cont_9to1_m_995_15_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Band

open Cert.KernelIdeal Cert.KernelIdeal.Gen Idealize.ShloMosaic Idealize.ShloMosaic.ValueIdx

/-! ## The two products' operand indices, axis by axis

Both products contract the left operand's columns against the right operand's rows: at output index `i` and
contraction position `q` the left operand is read at (i 0, q) and the right one at (q, i 1). -/

theorem proj_lhs_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem proj_lhs_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem proj_rhs_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem proj_rhs_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

theorem gather_lhs_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem gather_lhs_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem gather_rhs_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem gather_rhs_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-! ## The two products as sums -/

/-- The projection of the nodes: entry (k, c) is the inner product of feature row `k` with weight column `c`. -/
theorem projection_apply {φ₁ φ₂ : FTy} (l : FVec Ideal S1024x512 φ₁) (r : FVec Ideal S512x64 φ₂) (p : Fin 1024) (q : Fin 64) :
    matmul dot_S1024x512_S512x64_S1024x64_1_0_0_1_n_n none l r (constant S1024x64 .f32 0x00000000#32) (ix2 p q)
      = ∑ k : Fin 512, l (ix2 p k) * r (ix2 k q) := by
  show FloatOps.matmul dot_S1024x512_S512x64_S1024x64_1_0_0_1_n_n none l r (constant S1024x64 .f32 0x00000000#32) (ix2 p q) = _
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 p q) ((contrEquiv1 dot_S1024x512_S512x64_S1024x64_1_0_0_1_n_n 512 rfl rfl).symm k) = ix2 p k := funext fun a => Fin.ext (by
    match a with
    | ⟨0, _⟩ => exact proj_lhs_0 _ _
    | ⟨1, _⟩ => exact (proj_lhs_1 _ _).trans hk)
  have er : dot_S1024x512_S512x64_S1024x64_1_0_0_1_n_n.rhsIdx (ix2 p q) ((contrEquiv1 dot_S1024x512_S512x64_S1024x64_1_0_0_1_n_n 512 rfl rfl).symm k) = ix2 k q := funext fun a => Fin.ext (by
    match a with
    | ⟨0, _⟩ => exact (proj_rhs_0 _ _).trans hk
    | ⟨1, _⟩ => exact proj_rhs_1 _ _)
  rw [el, er]

/-- The band times the projections: entry (r, c) sums, over all nodes `k`, the band's entry (r, k) times node `k`'s projection onto `c`. -/
theorem gather_apply {φ₁ φ₂ : FTy} (l : FVec Ideal S512x1024 φ₁) (r : FVec Ideal S1024x64 φ₂) (p : Fin 512) (q : Fin 64) :
    matmul dot_S512x1024_S1024x64_S512x64_1_0_0_1_n_n none l r (constant S512x64 .f32 0x00000000#32) (ix2 p q)
      = ∑ k : Fin 1024, l (ix2 p k) * r (ix2 k q) := by
  show FloatOps.matmul dot_S512x1024_S1024x64_S512x64_1_0_0_1_n_n none l r (constant S512x64 .f32 0x00000000#32) (ix2 p q) = _
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p q) ((contrEquiv1 dot_S512x1024_S1024x64_S512x64_1_0_0_1_n_n 1024 rfl rfl).symm k) = ix2 p k := funext fun a => Fin.ext (by
    match a with
    | ⟨0, _⟩ => exact gather_lhs_0 _ _
    | ⟨1, _⟩ => exact (gather_lhs_1 _ _).trans hk)
  have er : dot_S512x1024_S1024x64_S512x64_1_0_0_1_n_n.rhsIdx (ix2 p q) ((contrEquiv1 dot_S512x1024_S1024x64_S512x64_1_0_0_1_n_n 1024 rfl rfl).symm k) = ix2 k q := funext fun a => Fin.ext (by
    match a with
    | ⟨0, _⟩ => exact (gather_rhs_0 _ _).trans hk
    | ⟨1, _⟩ => exact gather_rhs_1 _ _)
  rw [el, er]

/-! ## The bias row, repeated down the band -/

/-- The 1 × 64 bias row cast to its own shape and broadcast to 512 × 64 reads, at (r, c), the row's entry (0, c). -/
theorem bias_rows_apply {α : Type} (b : S1x64.Idx → α) (r : Fin 512) (c : Fin 64) :
    broadcastTo S512x64 (shapeCast S1x64 b shapeCasts_S1x64_S1x64) broadcasts_S1x64_S512x64 (ix2 r c) = b (ix2 0 c) := by
  rw [shapeCast_self]
  exact broadcastTo_apply b broadcasts_S1x64_S512x64 (ix2 r c) (ix2 0 c) (fun a => match a with
    | ⟨0, _⟩ => by show 0 = if (1 : Nat) = 1 then 0 else _; rw [if_pos rfl]
    | ⟨1, _⟩ => by show c.val = if (64 : Nat) = 1 then 0 else _; rw [if_neg (by decide)]; rfl)

/-! ## The body's stored value at an index -/

/-- Entry (r, c) of what the body stores for a band `ab`: the band's row `r` against the projections' column `c`,
    plus the bias of column `c`. -/
theorem body_apply (x : Vec Ideal S1024x512 .f32) (w : Vec Ideal S512x64 .f32) (ab : Vec Ideal S512x1024 .f32)
    (b : Vec Ideal S1x64 .f32) (r : Fin 512) (c : Fin 64) :
    k0_pay1 (F := Ideal) x w ab b (ix2 r c)
      = (∑ k : Fin 1024, ab (ix2 r k) * ∑ j : Fin 512, x (ix2 k j) * w (ix2 j c)) + b (ix2 0 c) := by
  show (matmul (F := Ideal) dot_S512x1024_S1024x64_S512x64_1_0_0_1_n_n none (truncf (F := Ideal) .bf16 ab bitsLt_bf16_f32)
        (truncf (F := Ideal) .bf16 (matmul (F := Ideal) dot_S1024x512_S512x64_S1024x64_1_0_0_1_n_n none (truncf (F := Ideal) .bf16 x bitsLt_bf16_f32)
          (truncf (F := Ideal) .bf16 w bitsLt_bf16_f32) (constant (F := Ideal) S1024x64 .f32 0x00000000#32)) bitsLt_bf16_f32)
        (constant (F := Ideal) S512x64 .f32 0x00000000#32)) (ix2 r c)
      + (broadcastTo S512x64 (shapeCast S1x64 b shapeCasts_S1x64_S1x64) broadcasts_S1x64_S512x64) (ix2 r c) = _
  rw [gather_apply, bias_rows_apply]
  refine congrArg (· + b (ix2 0 c)) (Finset.sum_congr rfl fun k _ => ?_)
  show ab (ix2 r k) * (matmul (F := Ideal) dot_S1024x512_S512x64_S1024x64_1_0_0_1_n_n none (truncf (F := Ideal) .bf16 x bitsLt_bf16_f32)
      (truncf (F := Ideal) .bf16 w bitsLt_bf16_f32) (constant (F := Ideal) S1024x64 .f32 0x00000000#32)) (ix2 k c) = _
  rw [projection_apply]
  rfl

end Cert.KernelIdeal.Band

end
-- ==== Proof.GraphConv.lean ====
/-
  One dense graph-convolution layer over the extended reals.

  1024 nodes carry 512 features each (`x`); `a` is the dense 1024 × 1024 adjacency; `w` sends 512 features to 64;
  `b` is one bias per output feature. Every node is first projected,
      s[k, c] = Σ_j x[k, j] · w[j, c],
  then every node gathers the projections of all nodes, weighted by its adjacency row, and the bias is added:
      out[r, c] = (Σ_k a[r, k] · s[k, c]) + b[c].
  Row `r` of the result reads only row `r` of the adjacency (and all of `x`, `w`, `b`), so the result may be
  produced one band of rows at a time; both sums are finite sums in a commutative monoid, so no order is fixed.
-/
import Idealize.ShloMosaic.PureOps.Ideal
import Idealize.ShloMosaic.Lib.ValueIdx

noncomputable section

open scoped BigOperators

namespace Cert.GraphConv

open Idealize.ShloMosaic Idealize.ShloMosaic.ValueIdx

/-- The projection of node `k` onto output feature `c`: the inner product of the node's feature row with
    column `c` of the weights. -/
def projected (x : (⟨2, ![1024, 512]⟩ : Shape).Idx → EReal) (w : (⟨2, ![512, 64]⟩ : Shape).Idx → EReal)
    (k : Fin 1024) (c : Fin 64) : EReal :=
  ∑ j : Fin 512, x (ix2 k j) * w (ix2 j c)

/-- The layer: node `i 0` sums the projections of all nodes against its adjacency row, and the bias of
    output feature `i 1` is added. -/
def layer (x : (⟨2, ![1024, 512]⟩ : Shape).Idx → EReal) (a : (⟨2, ![1024, 1024]⟩ : Shape).Idx → EReal)
    (w : (⟨2, ![512, 64]⟩ : Shape).Idx → EReal) (b : (⟨1, ![64]⟩ : Shape).Idx → EReal) :
    (⟨2, ![1024, 64]⟩ : Shape).Idx → EReal :=
  fun i => (∑ k : Fin 1024, a (ix2 (i 0) k) * projected x w k (i 1)) + b (ix1 (i 1))

end Cert.GraphConv

end
-- ==== Proof.KernelIsLayer.lean ====
/-
  The kernel computes the graph-convolution layer.

  The grid has two points. Point `t` is given all node features, all weights, the bias as a 1 × 64 row (the host
  reshapes the 64 biases into that row before the launch) and band `t` of the adjacency: rows 512·t … 512·t + 511.
  Its body's result for the band is written back as rows 512·t … 512·t + 511 of the 1024 × 64 output. Entry (r, c) of
  that band is the band's row `r` against the projections' column `c` plus the bias of `c`; the band's row `r` is the
  adjacency's row 512·t + r, so the written block is exactly the layer restricted to those rows. The two bands
  cover all 1024 rows, hence after the run the output array is the layer, everywhere.
-/
import proofs.«124367_g80427557585491_cont_9to1_m_995_15_alg».proof.Proof.Gen.KernelIdeal.Value
import proofs.«124367_g80427557585491_cont_9to1_m_995_15_alg».proof.Proof.BandProduct
import proofs.«124367_g80427557585491_cont_9to1_m_995_15_alg».proof.Proof.GraphConv

set_option maxRecDepth 16384

noncomputable section

open scoped BigOperators

namespace Cert.KernelIdeal.IsLayer

open Cert.KernelIdeal Cert.KernelIdeal.Gen Idealize.ShloMosaic Idealize.ShloMosaic.TcCoe Idealize.SL.Sem
open Idealize.ShloMosaic.ValueIdx
open Idealize.ShloMosaic.Pipeline (Dat)

/-! ## One band is the layer on its rows -/

/-- If the body's four operands are: all of `x`, all of `w`, the rows `q·512 …` of `a`, and `b` laid out as a row,
    then entry `j` of the body's result is the layer at row `q·512 + j 0`, column `j 1`. -/
theorem band_is_layer (x : Vec Ideal S1024x512 .f32) (a : Vec Ideal S1024x1024 .f32) (w : Vec Ideal S512x64 .f32)
    (b : Vec Ideal S64 .f32)
    (xb : Vec Ideal S1024x512 .f32) (wb : Vec Ideal S512x64 .f32) (ab : Vec Ideal S512x1024 .f32) (bb : Vec Ideal S1x64 .f32)
    (q : Nat) (j : S512x64.Idx) (i : S1024x64.Idx)
    (hx : ∀ y, xb y = x y) (hw : ∀ y, wb y = w y)
    (ha : ∀ (r : Fin 512) (k : Fin 1024) (r' : Fin 1024), r'.val = q * 512 + r.val → ab (ix2 r k) = a (ix2 r' k))
    (hb : ∀ cc : Fin 64, bb (ix2 0 cc) = b (ix1 cc))
    (hi0 : (i 0).val = q * 512 + (j 0).val) (hi1 : (i 1).val = (j 1).val) :
    k0_pay1 (F := Ideal) xb wb ab bb j = Cert.GraphConv.layer x a w b i := by
  obtain ⟨r, cc, rfl⟩ : ∃ (r : Fin 512) (cc : Fin 64), j = ix2 r cc := ⟨j 0, j 1, eq_ix2 j⟩
  rw [Band.body_apply]
  have e1 : i 1 = cc := Fin.ext hi1
  show _ = (∑ k : Fin 1024, a (ix2 (i 0) k) * ∑ jj : Fin 512, x (ix2 k jj) * w (ix2 jj (i 1))) + b (ix1 (i 1))
  rw [e1, hb cc]
  refine congrArg (· + b (ix1 cc)) (Finset.sum_congr rfl fun k _ => ?_)
  rw [ha r k (i 0) hi0]
  refine congrArg (a (ix2 (i 0) k) * ·) (Finset.sum_congr rfl fun jj _ => ?_)
  rw [hx, hw]

/-! ## The arrays the region finds -/

variable (m : (ℓ : Loc nD τ sig) → Buf (Elt Ideal) ℓ) (ρ : Dev nD → PrngReg)

/-- The layer of the four argument arrays as launched on core `c`. -/
abbrev result (c : Dev nD) : S1024x64.Idx → EReal :=
  Cert.GraphConv.layer (m ((c : Thread nD τ).loc main_arg0)) (m ((c : Thread nD τ).loc main_arg1))
    (m ((c : Thread nD τ).loc main_arg2)) (m ((c : Thread nD τ).loc main_arg3))

/-- Before the launch the host lays the 64 biases out as a 1 × 64 row: entry (0, c) of the row is bias `c`. -/
theorem bias_row_apply (c : Dev nD) (cc : Fin 64) :
    (V m c main_v0 : S1x64.Idx → EReal) (ix2 0 cc) = (m ((c : Thread nD τ).loc main_arg3) : S64.Idx → EReal) (ix1 cc) := by
  have e : (V m c main_v0 : S1x64.Idx → EReal)
      = shapeCast S1x64 (m ((c : Thread nD τ).loc main_arg3) : S64.Idx → EReal) shapeCasts_S64_S1x64 := by
    dsimp only [Gen.V, Gen.hostOps0]; after_results; rfl
  rw [e]
  exact shapeCast_apply _ shapeCasts_S64_S1x64 (ix2 0 cc) (ix1 cc) (by
    rw [Shape.rowMajor_val_one, Shape.rowMajor_val_two]
    show cc.val = 0 * 64 + cc.val
    omega)

/-! ## What each point writes back -/

theorem origin : (![0, 0] : Fin 2 → Nat) = fun _ => 0 := funext fun a => by fin_cases a <;> rfl

/-- The printed index maps, decided over the two points: features, weights and bias are always block (0, 0);
    the adjacency band and the output band move together down the rows, by at most one block. -/
theorem index_facts : ∀ t : Fin cfg0.N,
    win0_0.index t (0 : Fin 2) = 0 ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 1 ∧ win0_4.index t (1 : Fin 2) = 0 :=
  (by decide +kernel : ∀ t : Fin grid0.N, _)

/-- Each of the two row bands is some point's. -/
theorem band_onto : ∀ q : Fin 2, ∃ t : Fin cfg0.N, win0_4.index t = ![q.val, 0] :=
  (by decide +kernel : ∀ q : Fin 2, ∃ t : Fin grid0.N, win0_4.index t = ![q.val, 0])

/-- WHAT POINT `t` WRITES BACK is band `t` of the layer of the argument arrays. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero origin]
  simp only [View.ld_unit_zero (S := S1024x512) origin, View.ld_unit_zero (S := S512x64) origin,
    View.ld_unit_zero (S := S512x1024) origin, View.ld_unit_zero (S := S1x64) origin]
  obtain ⟨x0, x1, a0, a1, w0, w1, b0, b1, o0, o1⟩ := index_facts t
  funext j
  show k0_pay1 (F := Ideal) (iblk m c 0 t) (iblk m c 2 t) (iblk m c 1 t) (iblk m c 3 t) j
    = result m c (((cfg0.win 4).blk t).view.emb j)
  refine band_is_layer _ _ _ _ (iblk m c 0 t) (iblk m c 2 t) (iblk m c 1 t) (iblk m c 3 t) (win0_4.index t (0 : Fin 2)) j _
    ?_ ?_ ?_ ?_ ?_ ?_
  · intro y
    show V m c main_arg0 (((cfg0.win 0).blk t).view.emb y) = m ((c : Thread nD τ).loc main_arg0) y
    rw [V_main_arg0]
    refine congrArg _ (funext fun d => Fin.ext ?_)
    match d with
    | ⟨0, _⟩ => show win0_0.index t (0 : Fin 2) * 1024 + 1 * (y 0).val = (y 0).val; omega
    | ⟨1, _⟩ => show win0_0.index t (1 : Fin 2) * 512 + 1 * (y 1).val = (y 1).val; omega
  · intro y
    show V m c main_arg2 (((cfg0.win 2).blk t).view.emb y) = m ((c : Thread nD τ).loc main_arg2) y
    rw [V_main_arg2]
    refine congrArg _ (funext fun d => Fin.ext ?_)
    match d with
    | ⟨0, _⟩ => show win0_2.index t (0 : Fin 2) * 512 + 1 * (y 0).val = (y 0).val; omega
    | ⟨1, _⟩ => show win0_2.index t (1 : Fin 2) * 64 + 1 * (y 1).val = (y 1).val; omega
  · intro r k r' hr
    show V m c main_arg1 (((cfg0.win 1).blk t).view.emb (ix2 r k)) = m ((c : Thread nD τ).loc main_arg1) (ix2 r' k)
    rw [V_main_arg1]
    refine congrArg _ (funext fun d => Fin.ext ?_)
    match d with
    | ⟨0, _⟩ => show win0_1.index t (0 : Fin 2) * 512 + 1 * r.val = r'.val; omega
    | ⟨1, _⟩ => show win0_1.index t (1 : Fin 2) * 1024 + 1 * k.val = k.val; omega
  · intro cc
    show V m c main_v0 (((cfg0.win 3).blk t).view.emb (ix2 0 cc)) = m ((c : Thread nD τ).loc main_arg3) (ix1 cc)
    have he : ((cfg0.win 3).blk t).view.emb (ix2 0 cc) = ix2 0 cc := funext fun d => Fin.ext (by
      match d with
      | ⟨0, _⟩ => show win0_3.index t (0 : Fin 2) * 1 + 1 * 0 = 0; omega
      | ⟨1, _⟩ => show win0_3.index t (1 : Fin 2) * 64 + 1 * cc.val = cc.val; omega)
    rw [he]
    exact bias_row_apply m c cc
  · show win0_4.index t (0 : Fin 2) * 512 + 1 * (j 0).val = win0_4.index t (0 : Fin 2) * 512 + (j 0).val
    omega
  · show win0_4.index t (1 : Fin 2) * 64 + 1 * (j 1).val = (j 1).val
    omega

/-! ## The two bands cover the output -/

/-- An index of the output is in point `t`'s band iff each coordinate is in the band's range on its axis. -/
theorem mem_band (t : Fin cfg0.N) (i : S1024x64.Idx) :
    i ∈ ((cfg0.win 4).blk t).view.set ↔ ∀ d : Fin 2, win0_4.index t d * S512x64.size d ≤ (i d).val
      ∧ (i d).val < win0_4.index t d * S512x64.size d + S512x64.size d := by
  show i ∈ ((View.whole main_v1).slice (win0_4.rect t)).set ↔ _
  rw [View.set_slice_whole, Rect.mem_set_unit]
  exact Iff.rfl

/-- Row `r` lies in band `r / 512`. -/
theorem covered (i : S1024x64.Idx) :
    ∃ t : Fin cfg0.N, (cfg0.win 4).flush t = true ∧ i ∈ ((cfg0.win 4).blk t).view.set := by
  have hi0 : (i 0).val < 1024 := (i 0).isLt
  have hi1 : (i 1).val < 64 := (i 1).isLt
  obtain ⟨t, ht⟩ := band_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_band]
  intro d
  match d with
  | ⟨0, _⟩ => show win0_4.index t (0 : Fin 2) * 512 ≤ (i 0).val ∧ (i 0).val < win0_4.index t (0 : Fin 2) * 512 + 512; omega
  | ⟨1, _⟩ => show win0_4.index t (1 : Fin 2) * 64 ≤ (i 1).val ∧ (i 1).val < win0_4.index t (1 : Fin 2) * 64 + 64; omega

/-- THE OUTPUT ARRAY after the run is the layer of the argument arrays. -/
theorem final (c : Dev nD) : (dats m 0 c).arrAt 4 cfg0.N = result m c :=
  (dats m 0 c).arrAt_eq_of_cover 4 (result m c) (fun t _ => flushed_eq m c t) covered

/-! ## The run, read -/

/-- Every weakly fair execution of the kernel program ends with the output at the layer of the argument arrays,
    and the argument arrays unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.IsLayer

end
-- ==== Proof.ReferenceIsLayer.lean ====
/-
  The reference program computes the graph-convolution layer.

  Its five host operations are: the projection `x · w` (a matrix product contracting the 512 features), the
  aggregation `a · (x · w)` (a matrix product contracting the 1024 nodes), the bias laid out as a 1 × 64 row and
  then repeated down 1024 rows, and the sum of the two. Read at an index, each product is the finite sum of products
  over the contracted coordinate and each re-layout reads the bias at the column, so entry (r, c) of the result is
  (Σ_k a[r, k] · Σ_j x[k, j] · w[j, c]) + b[c], which is the layer by definition.
-/
import proofs.«124367_g80427557585491_cont_9to1_m_995_15_alg».proof.Proof.Gen.ReferenceIdeal.Read
import proofs.«124367_g80427557585491_cont_9to1_m_995_15_alg».proof.Proof.GraphConv

noncomputable section

open scoped BigOperators

namespace Cert.ReferenceIdeal.IsLayer

open Cert.ReferenceIdeal Cert.ReferenceIdeal.Gen Cert.ReferenceIdeal.Read Idealize.ShloMosaic Idealize.ShloMosaic.ValueIdx

/-- The aggregation reads the adjacency at (row, node) … -/
theorem agg_lhs (i : S1024x64.Idx) (k : Fin 1024) : lidx_main_v1 i k = ix2 (i 0) k :=
  funext fun a => Fin.ext (by match a with | ⟨0, _⟩ => rfl | ⟨1, _⟩ => rfl)
/-- … and the projections at (node, column). -/
theorem agg_rhs (i : S1024x64.Idx) (k : Fin 1024) : ridx_main_v1 i k = ix2 k (i 1) :=
  funext fun a => Fin.ext (by match a with | ⟨0, _⟩ => rfl | ⟨1, _⟩ => rfl)
/-- The projection reads the features at (node, feature) … -/
theorem proj_lhs (i : S1024x64.Idx) (k : Fin 512) : lidx_main_v0 i k = ix2 (i 0) k :=
  funext fun a => Fin.ext (by match a with | ⟨0, _⟩ => rfl | ⟨1, _⟩ => rfl)
/-- … and the weights at (feature, column). -/
theorem proj_rhs (i : S1024x64.Idx) (k : Fin 512) : ridx_main_v0 i k = ix2 k (i 1) :=
  funext fun a => Fin.ext (by match a with | ⟨0, _⟩ => rfl | ⟨1, _⟩ => rfl)
/-- The bias, laid out as a row and repeated down the rows, is read at the column. -/
theorem bias_idx (i : S1024x64.Idx) : idx_main_v2 (idx_main_v3 i) = ix1 (i 1) :=
  funext fun a => Fin.ext (by match a with | ⟨0, _⟩ => rfl)

/-- The reference's result, as a function of the four argument arrays, is the layer. -/
theorem result_eq (x : S1024x512.Idx → EReal) (a : S1024x1024.Idx → EReal) (w : S512x64.Idx → EReal) (b : S64.Idx → EReal) :
    val_main_v4 (F := Ideal) x a w b = Cert.GraphConv.layer x a w b := by
  funext i
  rw [val_main_v4_apply, val_main_v1_apply, val_main_v3_apply, val_main_v2_apply, bias_idx]
  show (∑ k : Fin 1024, a (lidx_main_v1 i k) * val_main_v0 (F := Ideal) x w (ridx_main_v1 i k)) + b (ix1 (i 1))
    = (∑ k : Fin 1024, a (ix2 (i 0) k) * ∑ j : Fin 512, x (ix2 k j) * w (ix2 j (i 1))) + b (ix1 (i 1))
  refine congrArg (· + b (ix1 (i 1))) (Finset.sum_congr rfl fun k _ => ?_)
  rw [val_main_v0_apply, agg_lhs, agg_rhs]
  refine congrArg (a (ix2 (i 0) k) * ·) (Finset.sum_congr rfl fun j _ => ?_)
  exact congrArg₂ (· * ·) (congrArg x (proj_lhs (ix2 k (i 1)) j)) (congrArg w (proj_rhs (ix2 k (i 1)) j))

end Cert.ReferenceIdeal.IsLayer

end
-- ==== Proof.lean ====
/-
  A dense graph-convolution layer, out = a · (x · w) + b over 1024 nodes, 512 input and 64 output features, computed
  by a kernel in two bands of 512 adjacency rows, against the plain reference that computes the two matrix products
  and the bias sum on whole arrays.

  Over the extended reals both programs compute the same function of the four arrays with the same grouping of the
  products: every node is projected, s[k, c] = Σ_j x[k, j] · w[j, c], and then out[r, c] = (Σ_k a[r, k] · s[k, c]) + b[c]
  (`Cert.GraphConv.layer`). The kernel narrows its operands to a shorter float format before each product, which is
  the identity on extended reals; its products run into a zero accumulator, which adds nothing; and it recomputes the
  projections at each of its two grid points, which changes no value. Row r of the result reads only row r of the
  adjacency, so band t of the kernel's output (rows 512·t … 512·t + 511) is the layer restricted to those rows, and the
  two bands cover the output. No algebraic law beyond reading each product as a finite sum is used, so the
  finiteness of the inputs is never opened.

  The three frames: the two kernel programs by their generated frame certificates, the reference by its generated run.
  The idealization rewrote nothing, so there is nothing to preserve.
-/
import proofs.«124367_g80427557585491_cont_9to1_m_995_15_alg».proof.Defs
import proofs.«124367_g80427557585491_cont_9to1_m_995_15_alg».proof.Proof.Gen.Kernel
import proofs.«124367_g80427557585491_cont_9to1_m_995_15_alg».proof.Proof.Gen.Kernel.Skeleton
import proofs.«124367_g80427557585491_cont_9to1_m_995_15_alg».proof.Proof.Gen.Kernel.Launch
import proofs.«124367_g80427557585491_cont_9to1_m_995_15_alg».proof.Proof.Gen.Kernel.Points
import proofs.«124367_g80427557585491_cont_9to1_m_995_15_alg».proof.Proof.Gen.Kernel.Frame
import proofs.«124367_g80427557585491_cont_9to1_m_995_15_alg».proof.Proof.Gen.KernelIdeal
import proofs.«124367_g80427557585491_cont_9to1_m_995_15_alg».proof.Proof.Gen.KernelIdeal.Skeleton
import proofs.«124367_g80427557585491_cont_9to1_m_995_15_alg».proof.Proof.Gen.KernelIdeal.Launch
import proofs.«124367_g80427557585491_cont_9to1_m_995_15_alg».proof.Proof.Gen.KernelIdeal.Points
import proofs.«124367_g80427557585491_cont_9to1_m_995_15_alg».proof.Proof.Gen.KernelIdeal.Frame
import proofs.«124367_g80427557585491_cont_9to1_m_995_15_alg».proof.Proof.Gen.ReferenceIdeal
import proofs.«124367_g80427557585491_cont_9to1_m_995_15_alg».proof.Proof.Gen.Pre_finite_inputs
import proofs.«124367_g80427557585491_cont_9to1_m_995_15_alg».proof.Proof.Gen.KernelIdeal.Value
import proofs.«124367_g80427557585491_cont_9to1_m_995_15_alg».proof.Proof.Gen.ReferenceIdeal.Run
import proofs.«124367_g80427557585491_cont_9to1_m_995_15_alg».proof.Proof.Gen.ReferenceIdeal.Read
import proofs.«124367_g80427557585491_cont_9to1_m_995_15_alg».proof.Proof.KernelIsLayer
import proofs.«124367_g80427557585491_cont_9to1_m_995_15_alg».proof.Proof.ReferenceIsLayer
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arrays, the kernel's output ends at the layer of its arrays (two bands that
    cover the rows), the reference's result at the layer of its own, and the arrays are the same. -/
theorem algebraic : Cert.algebraic_KernelIdeal_ReferenceIdeal := by
  intro m ρ m' ρ' _ hagree
  refine ⟨fun c => Cert.KernelIdeal.IsLayer.result m c, Cert.KernelIdeal.IsLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsLayer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
